-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x784 : Shape := ⟨2, ![256, 784]⟩
abbrev S784x1000 : Shape := ⟨2, ![784, 1000]⟩
abbrev S100x1000 : Shape := ⟨2, ![100, 1000]⟩
abbrev S_ : Shape := ⟨0, ![]⟩

class Facts : Prop where
  bcast_S_S256x784 : S_.BroadcastsInDim S256x784 (![] : Fin 0 → Fin S256x784.rank)
  reducesTo_S256x784_S_d0_1 : S256x784.ReducesTo [0, 1] S_
  h_S_ : 0 < S_.numel
  bcast_S_S784x1000 : S_.BroadcastsInDim S784x1000 (![] : Fin 0 → Fin S784x1000.rank)
  reducesTo_S784x1000_S_d0_1 : S784x1000.ReducesTo [0, 1] S_
  bcast_S_S100x1000 : S_.BroadcastsInDim S100x1000 (![] : Fin 0 → Fin S100x1000.rank)
  reducesTo_S100x1000_S_d0_1 : S100x1000.ReducesTo [0, 1] S_

variable [Facts]

def fn {F : FTy → Type} [FloatOps F] (main_arg0 : FVec F S256x784 .f32) (main_arg1 : FVec F S784x1000 .f32) (main_arg2 : FVec F S100x1000 .f32) : IVec S_ 1 :=
  let main_v0 : FVec F S256x784 .f32 := Host.absf main_arg0
  let main_cst : FVec F S_ .f32 := constant S_ .f32 0x7F800000#32
  let main_v1 : FVec F S256x784 .f32 := broadcastInDim S256x784 ![] bcast_S_S256x784 main_cst
  let main_v2 : IVec S256x784 1 := cmpf .olt main_v0 main_v1
  let main_c : IVec S_ 1 := constantI S_ 1 1#1
  let main_v3 : IVec S_ 1 := (fun x v => Host.reduce IntOp.andi x v reducesTo_S256x784_S_d0_1 h_S_) main_v2 main_c
  let main_v4 : FVec F S784x1000 .f32 := Host.absf main_arg1
  let main_cst_0 : FVec F S_ .f32 := constant S_ .f32 0x7F800000#32
  let main_v5 : FVec F S784x1000 .f32 := broadcastInDim S784x1000 ![] bcast_S_S784x1000 main_cst_0
  let main_v6 : IVec S784x1000 1 := cmpf .olt main_v4 main_v5
  let main_c_1 : IVec S_ 1 := constantI S_ 1 1#1
  let main_v7 : IVec S_ 1 := (fun x v => Host.reduce IntOp.andi x v reducesTo_S784x1000_S_d0_1 h_S_) main_v6 main_c_1
  let main_v8 : IVec S_ 1 := andi main_v3 main_v7
  let main_v9 : FVec F S100x1000 .f32 := Host.absf main_arg2
  let main_cst_2 : FVec F S_ .f32 := constant S_ .f32 0x7F800000#32
  let main_v10 : FVec F S100x1000 .f32 := broadcastInDim S100x1000 ![] bcast_S_S100x1000 main_cst_2
  let main_v11 : IVec S100x1000 1 := cmpf .olt main_v9 main_v10
  let main_c_3 : IVec S_ 1 := constantI S_ 1 1#1
  let main_v12 : IVec S_ 1 := (fun x v => Host.reduce IntOp.andi x v reducesTo_S100x1000_S_d0_1 h_S_) main_v11 main_c_3
  let main_v13 : IVec S_ 1 := andi main_v8 main_v12
  main_v13
-- ==== Kernel.lean ====
abbrev S256x784 : Shape := ⟨2, ![256, 784]⟩
abbrev S784x1000 : Shape := ⟨2, ![784, 1000]⟩
abbrev S100x1000 : Shape := ⟨2, ![100, 1000]⟩
abbrev S256x1000 : Shape := ⟨2, ![256, 1000]⟩
abbrev S32x784 : Shape := ⟨2, ![32, 784]⟩
abbrev S32x1000 : Shape := ⟨2, ![32, 1000]⟩
abbrev S1x100x1 : Shape := ⟨3, ![1, 100, 1]⟩
abbrev S32x1x784 : Shape := ⟨3, ![32, 1, 784]⟩
abbrev S32x100x784 : Shape := ⟨3, ![32, 100, 784]⟩
abbrev S3200x784 : Shape := ⟨2, ![3200, 784]⟩
abbrev S3200x1000 : Shape := ⟨2, ![3200, 1000]⟩
abbrev S32x100x1000 : Shape := ⟨3, ![32, 100, 1000]⟩
abbrev S1x100x1000 : Shape := ⟨3, ![1, 100, 1000]⟩

abbrev nBuf : Space → Nat
  | .hbm => 6
  | .vmem => 6
  | .smem => 0
  | _ => 0

abbrev bufTy : (tb : Table) → Fin (tcTables nBuf tb) → BufTy
  | .hbm, ⟨0, _⟩ => ⟨S256x784, .f32⟩
  | .hbm, ⟨1, _⟩ => ⟨S784x1000, .f32⟩
  | .hbm, ⟨2, _⟩ => ⟨S100x1000, .f32⟩
  | .hbm, ⟨3, _⟩ => ⟨S784x1000, .bf16⟩
  | .hbm, ⟨4, _⟩ => ⟨S100x1000, .bf16⟩
  | .hbm, ⟨5, _⟩ => ⟨S256x1000, .f32⟩
  | .local _ .vmem, ⟨0, _⟩ => ⟨S32x784, .f32⟩
  | .local _ .vmem, ⟨1, _⟩ => ⟨S32x784, .f32⟩
  | .local _ .vmem, ⟨2, _⟩ => ⟨S784x1000, .bf16⟩
  | .local _ .vmem, ⟨3, _⟩ => ⟨S100x1000, .bf16⟩
  | .local _ .vmem, ⟨4, _⟩ => ⟨S32x1000, .f32⟩
  | .local _ .vmem, ⟨5, _⟩ => ⟨S32x1000, .f32⟩
  | _, _ => ⟨S256x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S32x784_S32x784_0_0 : ∀ a, (![0, 0] : Fin 2 → Nat) a + S32x784.size a ≤ S32x784.size a
  h_S32x784 : 0 < S32x784.numel
  iota_S1x100x1_d1_w32 : S1x100x1.Iotas .tc 32 [1]
  shapeCasts_S32x784_S32x1x784 : S32x784.ShapeCasts S32x1x784
  broadcasts_S32x1x784_S32x100x784 : S32x1x784.Broadcasts S32x100x784
  broadcasts_S1x100x1_S32x100x784 : S1x100x1.Broadcasts S32x100x784
  natLt_1_32 : 1 < 32
  shapeCasts_S32x100x784_S3200x784 : S32x100x784.ShapeCasts S3200x784
  inb_S784x1000_S784x1000_0_0 : ∀ a, (![0, 0] : Fin 2 → Nat) a + S784x1000.size a ≤ S784x1000.size a
  h_S784x1000 : 0 < S784x1000.numel
  shapeCasts_S784x1000_S784x1000 : S784x1000.ShapeCasts S784x1000
  shapeCasts_S3200x1000_S32x100x1000 : S3200x1000.ShapeCasts S32x100x1000
  inb_S100x1000_S100x1000_0_0 : ∀ a, (![0, 0] : Fin 2 → Nat) a + S100x1000.size a ≤ S100x1000.size a
  h_S100x1000 : 0 < S100x1000.numel
  shapeCasts_S100x1000_S100x1000 : S100x1000.ShapeCasts S100x1000
  shapeCasts_S100x1000_S1x100x1000 : S100x1000.ShapeCasts S1x100x1000
  broadcasts_S1x100x1000_S32x100x1000 : S1x100x1000.Broadcasts S32x100x1000
  reduces_S32x100x1000_S32x1000 : S32x100x1000.Reduces [1] S32x1000
  inb_S32x1000_S32x1000_0_0 : ∀ a, (![0, 0] : Fin 2 → Nat) a + S32x1000.size a ≤ S32x1000.size a
  h_S32x1000 : 0 < S32x1000.numel
  dot_S3200x784_S784x1000_S3200x1000_1_0_0_1_n_n_wf : DotDims.WF S3200x784 S784x1000 S3200x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x784.size a ≤ S256x784.size a
  hwx0_0 : ∀ i : grid0.Coords, EltTy.bits .f32 = 32 ∨ (Rect.block (s := S256x784) S32x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1000.size a ≤ S784x1000.size a
  hwx0_1 : ∀ i : grid0.Coords, EltTy.bits .bf16 = 32 ∨ (Rect.block (s := S784x1000) S784x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x1000.size a ≤ S100x1000.size a
  hwx0_2 : ∀ i : grid0.Coords, EltTy.bits .bf16 = 32 ∨ (Rect.block (s := S100x1000) S100x1000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1000.size a ≤ S256x1000.size a
  hwx0_3 : ∀ i : grid0.Coords, EltTy.bits .f32 = 32 ∨ (Rect.block (s := S256x1000) S32x1000.size (cc0_transform_3 i) (hinb0_3 i)).WholeWords (EltTy.packing .f32)

variable [Facts₀]

def dot_S3200x784_S784x1000_S3200x1000_1_0_0_1_n_n : DotDims S3200x784 S784x1000 S3200x1000 where
  lhsContracting := [1]
  rhsContracting := [0]
  lhsNonContracting := [0]
  rhsNonContracting := [1]
  lhsBatch := []
  rhsBatch := []
  wf := dot_S3200x784_S784x1000_S3200x1000_1_0_0_1_n_n_wf

abbrev win0_0 : Pipeline.Window sig grid0 :=
  Pipeline.Window.ofSpec (Memref.whole main_arg0) S32x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S784x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S100x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x784 : Shape := ⟨2, ![256, 784]⟩
abbrev S784x1000 : Shape := ⟨2, ![784, 1000]⟩
abbrev S100x1000 : Shape := ⟨2, ![100, 1000]⟩
abbrev S_ : Shape := ⟨0, ![]⟩
abbrev S256x784x1 : Shape := ⟨3, ![256, 784, 1]⟩
abbrev S256x784x1000 : Shape := ⟨3, ![256, 784, 1000]⟩
abbrev S1x784x1000 : Shape := ⟨3, ![1, 784, 1000]⟩
abbrev S256x1000 : Shape := ⟨2, ![256, 1000]⟩

abbrev nBuf : Space → Nat
  | .hbm => 39
  | .vmem => 0
  | .smem => 0
  | _ => 0

abbrev bufTy : (tb : Table) → Fin (tcTables nBuf tb) → BufTy
  | .hbm, ⟨0, _⟩ => ⟨S256x784, .f32⟩
  | .hbm, ⟨1, _⟩ => ⟨S784x1000, .f32⟩
  | .hbm, ⟨2, _⟩ => ⟨S100x1000, .f32⟩
  | .hbm, ⟨3, _⟩ => ⟨S_, .f32⟩
  | .hbm, ⟨4, _⟩ => ⟨S256x784, .f32⟩
  | .hbm, ⟨5, _⟩ => ⟨S256x784, .f32⟩
  | .hbm, ⟨6, _⟩ => ⟨S256x784, .f32⟩
  | .hbm, ⟨7, _⟩ => ⟨S_, .i32⟩
  | .hbm, ⟨8, _⟩ => ⟨S_, .i32⟩
  | .hbm, ⟨9, _⟩ => ⟨S_, .f32⟩
  | .hbm, ⟨10, _⟩ => ⟨S256x784, .f32⟩
  | .hbm, ⟨11, _⟩ => ⟨S256x784, .f32⟩
  | .hbm, ⟨12, _⟩ => ⟨S_, .f32⟩
  | .hbm, ⟨13, _⟩ => ⟨S256x784, .f32⟩
  | .hbm, ⟨14, _⟩ => ⟨S256x784, .f32⟩
  | .hbm, ⟨15, _⟩ => ⟨S256x784, .i32⟩
  | .hbm, ⟨16, _⟩ => ⟨S_, .i32⟩
  | .hbm, ⟨17, _⟩ => ⟨S256x784, .i32⟩
  | .hbm, ⟨18, _⟩ => ⟨S256x784, .i1⟩
  | .hbm, ⟨19, _⟩ => ⟨S_, .i32⟩
  | .hbm, ⟨20, _⟩ => ⟨S256x784, .i32⟩
  | .hbm, ⟨21, _⟩ => ⟨S256x784, .i32⟩
  | .hbm, ⟨22, _⟩ => ⟨S256x784, .i32⟩
  | .hbm, ⟨23, _⟩ => ⟨S256x784x1, .i32⟩
  | .hbm, ⟨24, _⟩ => ⟨S256x784x1000, .f32⟩
  | .hbm, ⟨25, _⟩ => ⟨S1x784x1000, .f32⟩
  | .hbm, ⟨26, _⟩ => ⟨S256x784x1000, .f32⟩
  | .hbm, ⟨27, _⟩ => ⟨S256x784x1000, .f32⟩
  | .hbm, ⟨28, _⟩ => ⟨S_, .f32⟩
  | .hbm, ⟨29, _⟩ => ⟨S256x1000, .f32⟩
  | .hbm, ⟨30, _⟩ => ⟨S_, .f32⟩
  | .hbm, ⟨31, _⟩ => ⟨S256x1000, .f32⟩
  | .hbm, ⟨32, _⟩ => ⟨S256x1000, .i1⟩
  | .hbm, ⟨33, _⟩ => ⟨S_, .f32⟩
  | .hbm, ⟨34, _⟩ => ⟨S_, .f32⟩
  | .hbm, ⟨35, _⟩ => ⟨S256x1000, .f32⟩
  | .hbm, ⟨36, _⟩ => ⟨S256x1000, .f32⟩
  | .hbm, ⟨37, _⟩ => ⟨S256x1000, .f32⟩
  | .hbm, ⟨38, _⟩ => ⟨S256x1000, .f32⟩
  | _, _ => ⟨S256x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_cst_6 : Ref sig .tc := ⟨.hbm, 34, rfl⟩
abbrev main_call2_v0 : Ref sig .tc := ⟨.hbm, 35, rfl⟩
abbrev main_call2_v1 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]

class Facts₀ : Prop where
  bcast_S_S256x784 : S_.BroadcastsInDim S256x784 (![] : Fin 0 → Fin S256x784.rank)
  bcast_S256x784_S256x784x1_0_1 : S256x784.BroadcastsInDim S256x784x1 (![0, 1] : Fin 2 → Fin S256x784x1.rank)
  bcast_S784x1000_S1x784x1000_1_2 : S784x1000.BroadcastsInDim S1x784x1000 (![1, 2] : Fin 2 → Fin S1x784x1000.rank)
  bcast_S1x784x1000_S256x784x1000_0_1_2 : S1x784x1000.BroadcastsInDim S256x784x1000 (![0, 1, 2] : Fin 3 → Fin S256x784x1000.rank)
  reducesTo_S256x784x1000_S256x1000_d1 : S256x784x1000.ReducesTo [1] S256x1000
  h_S_ : 0 < S_.numel
  bcast_S_S256x1000 : S_.BroadcastsInDim S256x1000 (![] : Fin 0 → Fin S256x1000.rank)
  gather_S100x1000_S256x784x1_S256x784x1000_2_0_n_n_0_2_11000_wf : GatherDims.WF S100x1000 S256x784x1 S256x784x1000 [2] [0] [] [0] [] 2 ![1, 1000]

variable [Facts₀]

def gather_S100x1000_S256x784x1_S256x784x1000_2_0_n_n_0_2_11000 : GatherDims S100x1000 S256x784x1 S256x784x1000 where
  offsetDims := [2]
  collapsedSliceDims := [0]
  operandBatchingDims := []
  startIndicesBatchingDims := []
  startIndexMap := [0]
  indexVectorDim := 2
  sliceSizes := ![1, 1000]
  wf := gather_S100x1000_S256x784x1_S256x784x1000_2_0_n_n_0_2_11000_wf

class Facts : Prop extends Facts₀ where

variable [Facts]
-- ==== Proof.Level.lean ====
/-
  The level index of a feature value: `clip(round(99 · x), 0, 99)` read as a 32-bit integer, as both programs
  compute it at the ideal values (round to nearest with ties to even, clamp between 0 and 99, convert toward zero).
  Whatever extended real `x` is, the clamp leaves a real number between 0 and 99, so the word is one of 0, …, 99.
-/
import Idealize.ShloMosaic.PureOps.Ideal
import Idealize.ShloMosaic.PureOps.Ideal.Laws

noncomputable section

namespace Cert.Hv

open Idealize.ShloMosaic

/-- The level word of a feature value. -/
def lev (x : Ideal .f32) : BitVec 32 :=
  FloatOps.fptosi (F := Ideal) 32
    (FloatOps.minimumf (FloatOps.sitofp (F := Ideal) .f32 (99#32 : BitVec 32))
      (FloatOps.maximumf (FloatOps.sitofp (F := Ideal) .f32 (0#32 : BitVec 32))
        (FloatOps.roundeven (FloatOps.mulf x (FloatOps.ofBits .f32 0x42C60000#32)))))

/-- The conversion toward zero of a real between 0 and 99 is its floor, a word whose signed value is in 0, …, 99. -/
theorem fptosi_range (r : ℝ) (h0 : 0 ≤ r) (h1 : r ≤ 99) :
    0 ≤ (Ideal.fptosi 32 (r : EReal)).toInt ∧ (Ideal.fptosi 32 (r : EReal)).toInt < 100 := by
  have hf0 : 0 ≤ ⌊r⌋ := Int.floor_nonneg.mpr h0
  have hf1 : ⌊r⌋ ≤ 99 := by
    have : ⌊r⌋ ≤ ⌊(99 : ℝ)⌋ := Int.floor_le_floor h1
    simpa using this
  unfold Ideal.fptosi
  rw [Ideal.toIntClamped_coe, if_pos h0]
  rw [BitVec.toInt_ofInt]
  simp only [Int.bmod_def]
  norm_num
  omega

/-- The level word is the conversion of a real between 0 and 99: the clamp's value. -/
theorem lev_eq_fptosi (x : Ideal .f32) : ∃ r : ℝ, 0 ≤ r ∧ r ≤ 99 ∧ lev x = Ideal.fptosi 32 (r : EReal) := by
  have e : ∀ y : EReal, ∃ r : ℝ, 0 ≤ r ∧ r ≤ 99 ∧
      min (((99#32 : BitVec 32).toInt : ℝ) : EReal) (max (((0#32 : BitVec 32).toInt : ℝ) : EReal) y) = (r : EReal) := by
    intro y
    have e99 : (99#32 : BitVec 32).toInt = 99 := by decide
    have e0 : (0#32 : BitVec 32).toInt = 0 := by decide
    rw [e99, e0]
    have hlo : ((0 : ℝ) : EReal) ≤ min (((99 : ℤ) : ℝ) : EReal) (max (((0 : ℤ) : ℝ) : EReal) y) :=
      le_min (by exact_mod_cast (by norm_num : (0 : ℝ) ≤ 99)) (by simp)
    have hhi : min (((99 : ℤ) : ℝ) : EReal) (max (((0 : ℤ) : ℝ) : EReal) y) ≤ ((99 : ℝ) : EReal) := by
      refine (min_le_left _ _).trans ?_
      norm_num
    generalize min (((99 : ℤ) : ℝ) : EReal) (max (((0 : ℤ) : ℝ) : EReal) y) = v at hlo hhi
    induction v using EReal.rec with
    | bot => exact absurd hlo (by simp)
    | top => exact absurd hhi (by simp)
    | coe r => exact ⟨r, by exact_mod_cast hlo, by exact_mod_cast hhi, rfl⟩
  obtain ⟨r, h0, h1, hr⟩ := e (FloatOps.roundeven (FloatOps.mulf x (FloatOps.ofBits .f32 0x42C60000#32)) : Ideal .f32)
  exact ⟨r, h0, h1, congrArg (Ideal.fptosi 32) hr⟩

/-- The level word's signed value is one of 0, …, 99. -/
theorem lev_range (x : Ideal .f32) : 0 ≤ (lev x).toInt ∧ (lev x).toInt < 100 := by
  obtain ⟨r, h0, h1, e⟩ := lev_eq_fptosi x
  rw [e]
  exact fptosi_range r h0 h1

/-- The level as an index into the 100 level rows. -/
def levN (x : Ideal .f32) : Fin 100 := ⟨(lev x).toInt.toNat, by have := lev_range x; omega⟩

theorem levN_val (x : Ideal .f32) : ((levN x).val : ℤ) = (lev x).toInt := by
  have := lev_range x
  show (((lev x).toInt.toNat : ℕ) : ℤ) = _
  omega

/-- The level word equals the word of `l` exactly when the level index is `l`. -/
theorem lev_eq_ofNat_iff (x : Ideal .f32) (l : Fin 100) : lev x = BitVec.ofNat 32 l.val ↔ levN x = l := by
  have hr := lev_range x
  have hv := levN_val x
  constructor
  · intro h
    apply Fin.ext
    have : (lev x).toInt = (BitVec.ofNat 32 l.val).toInt := by rw [h]
    rw [BitVec.toInt_ofNat'] at this
    have hl := l.isLt
    simp only [Int.bmod_def] at this
    omega
  · intro h
    apply BitVec.eq_of_toInt_eq
    rw [BitVec.toInt_ofNat']
    have hl := l.isLt
    have : (levN x).val = l.val := by rw [h]
    simp only [Int.bmod_def]
    omega

end Cert.Hv

end
-- ==== Proof.Bundle.lean ====
/-
  The law that joins the two programs' bundled sums. One side picks, for each feature `f`, the level row `j f` and sums
  `K f · V (j f)` over the features. The other first sums, for each level `l`, the keys of the features whose level is `l`
  (a product with the 0/1 matrix "`j f = l`"), then sums those partial sums times `V l` over the levels. Over the reals
  the two are one number: distribute `V l` into the inner sum, exchange the two sums, and for each feature only its own
  level survives. On the extended reals distributivity needs the entries finite, which is where finiteness of the keys
  and of the level rows is used.
-/
import Idealize.ShloMosaic.PureOps.Ideal
import Idealize.ShloMosaic.PureOps.Ideal.Laws
import Mathlib.Algebra.BigOperators.Group.Finset.Basic
import Mathlib.Algebra.BigOperators.Ring.Finset
import Mathlib.Data.EReal.Basic

noncomputable section

namespace Cert.Hv

open Idealize.ShloMosaic
open scoped BigOperators

/-- The 0/1 word of an integer comparison, widened to 32 bits and read as a float: 1 when the words are equal, else 0. -/
theorem onehot_eq (a b : BitVec 32) :
    ((((IntOp.cmpi .eq a b).setWidth 32).toInt : ℝ) : EReal) = if a = b then ((1 : ℝ) : EReal) else ((0 : ℝ) : EReal) := by
  by_cases h : a = b
  · subst h
    rw [if_pos rfl]
    have : IntOp.cmpi .eq a a = 1#1 := by simp [IntOp.cmpi]
    rw [this]
    have e : ((1#1 : BitVec 1).setWidth 32).toInt = 1 := by decide
    rw [e]; norm_num
  · rw [if_neg h]
    have hb : (a == b) = false := beq_eq_false_iff_ne.mpr h
    have : IntOp.cmpi .eq a b = 0#1 := by simp [IntOp.cmpi, hb]
    rw [this]
    have e : ((0#1 : BitVec 1).setWidth 32).toInt = 0 := by decide
    rw [e]; norm_num

/-- The coercion of the reals into the extended reals goes through a finite sum. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Over the reals: the level-by-level sum of "partial key sums times the level row" is the feature-by-feature sum of
    "key times the feature's own level row". -/
theorem bundle_real {ι κ : Type} [Fintype ι] [Fintype κ] [DecidableEq κ] (j : ι → κ) (k : ι → ℝ) (v : κ → ℝ) :
    ∑ l : κ, (∑ f : ι, (if j f = l then (1 : ℝ) else 0) * k f) * v l = ∑ f : ι, k f * v (j f) := by
  simp_rw [Finset.sum_mul]
  rw [Finset.sum_comm]
  refine Finset.sum_congr rfl fun f _ => ?_
  have : ∀ l : κ, (if j f = l then (1 : ℝ) else 0) * k f * v l = if j f = l then k f * v l else 0 := by
    intro l; split_ifs <;> ring
  simp_rw [this]
  rw [Finset.sum_ite_eq]
  simp

/-- The same on the extended reals, for finite keys and level rows. -/
theorem bundle_ereal {ι κ : Type} [Fintype ι] [Fintype κ] [DecidableEq κ] (j : ι → κ) (K : ι → EReal) (V : κ → EReal)
    (hK : ∀ f, ∃ r : ℝ, K f = (r : EReal)) (hV : ∀ l, ∃ r : ℝ, V l = (r : EReal)) :
    ∑ l : κ, (∑ f : ι, (if j f = l then ((1 : ℝ) : EReal) else ((0 : ℝ) : EReal)) * K f) * V l = ∑ f : ι, K f * V (j f) := by
  choose k hk using hK
  choose v hv using hV
  have e1 : ∀ l : κ, (∑ f : ι, (if j f = l then ((1 : ℝ) : EReal) else ((0 : ℝ) : EReal)) * K f) * V l
      = ((((∑ f : ι, (if j f = l then (1 : ℝ) else 0) * k f) * v l : ℝ)) : EReal) := by
    intro l
    rw [EReal.coe_mul, coe_sum, hv l]
    congr 1
    refine Finset.sum_congr rfl fun f _ => ?_
    rw [hk f, EReal.coe_mul]
    congr 1
    split_ifs <;> rfl
  have e2 : ∀ f : ι, K f * V (j f) = ((k f * v (j f) : ℝ) : EReal) := by
    intro f; rw [hk f, hv (j f), EReal.coe_mul]
  simp_rw [e1, e2]
  rw [← coe_sum, ← coe_sum, bundle_real]

end Cert.Hv

end
-- ==== Proof.Payload.lean ====
/-
  The kernel body's stored value at one index of its [32, 1000] block, at the ideal values. For row `p` of the block
  and dimension `q`:  1 when  ∑ l, (∑ f, [level(x p f) = l] · K f q) · V l q  is positive, else -1  —  the
  0/1 matrix of the levels laid out as 3200 rows (row p·100 + l), its product with the keys, the product regrouped as
  [32, 100, 1000], multiplied by the level rows and summed over the levels.
-/
import proofs.«135671_j8383776162326_1_alg».proof.Proof.Gen.KernelIdeal.Skeleton
import proofs.«135671_j8383776162326_1_alg».proof.Proof.Level
import proofs.«135671_j8383776162326_1_alg».proof.Proof.Bundle
import Idealize.ShloMosaic.Lib.ValueIdx
import Idealize.ShloMosaic.Lib.Pipeline.Value
import Idealize.ShloMosaic.PureOps.Ideal.Laws

set_option maxRecDepth 16384

noncomputable section

namespace Cert.KernelIdeal.Pay

open Cert.KernelIdeal Cert.KernelIdeal.Gen Idealize.ShloMosaic Idealize.ShloMosaic.ValueIdx Cert.Hv
open scoped BigOperators

/-- Row `p·100 + l`, column `f` of the 0/1 matrix: 1 when the level word of `(p, f)` is the word of `l`, else 0. -/
theorem onehot_apply (idx : IVec S32x784 32) (p : Fin 32) (l : Fin 100) (f : Fin 784) (r : Fin 3200)
    (hr : r.val = p.val * 100 + l.val) :
    (shapeCast S3200x784
      (truncf .bf16 (sitofp (F := Ideal) .f32 (extui 32 (cmpi .eq
        (broadcastTo S32x100x784 (shapeCast S32x1x784 idx shapeCasts_S32x784_S32x1x784) broadcasts_S32x1x784_S32x100x784)
        (broadcastTo S32x100x784 (iota .tc S1x100x1 32 [1] iota_S1x100x1_d1_w32) broadcasts_S1x100x1_S32x100x784)) natLt_1_32)) bitsLt_bf16_f32)
      shapeCasts_S32x100x784_S3200x784) (ix2 r f)
    = if idx (ix2 p f) = BitVec.ofNat 32 l.val then ((1 : ℝ) : EReal) else ((0 : ℝ) : EReal) := by
  refine (shapeCast_apply _ _ (ix2 r f) (ix3 p l f) (by
    rw [Shape.rowMajor_val_three, Shape.rowMajor_val_two]
    show (p.val * 100 + l.val) * 784 + f.val = r.val * 784 + f.val
    rw [hr])).trans ?_
  show ((((IntOp.cmpi .eq
      (broadcastTo S32x100x784 (shapeCast S32x1x784 idx shapeCasts_S32x784_S32x1x784) broadcasts_S32x1x784_S32x100x784 (ix3 p l f))
      (broadcastTo S32x100x784 (iota .tc S1x100x1 32 [1] iota_S1x100x1_d1_w32) broadcasts_S1x100x1_S32x100x784 (ix3 p l f))).setWidth 32).toInt : ℝ) : EReal) = _
  have e1 : broadcastTo S32x100x784 (shapeCast S32x1x784 idx shapeCasts_S32x784_S32x1x784) broadcasts_S32x1x784_S32x100x784 (ix3 p l f)
      = idx (ix2 p f) := by
    refine (broadcastTo_apply _ _ (ix3 p l f) (ix3 p (0 : Fin 1) f) (fun a => match a with
      | ⟨0, _⟩ => by show p.val = if (32 : Nat) = 1 then 0 else p.val; rw [if_neg (by decide)]
      | ⟨1, _⟩ => by show 0 = if (1 : Nat) = 1 then 0 else l.val; rw [if_pos rfl]
      | ⟨2, _⟩ => by show f.val = if (784 : Nat) = 1 then 0 else f.val; rw [if_neg (by decide)])).trans ?_
    exact shapeCast_apply _ _ (ix3 p (0 : Fin 1) f) (ix2 p f) (by
      rw [Shape.rowMajor_val_two, Shape.rowMajor_val_three]
      show p.val * 784 + f.val = (p.val * 1 + 0) * 784 + f.val
      omega)
  have e2 : broadcastTo S32x100x784 (iota .tc S1x100x1 32 [1] iota_S1x100x1_d1_w32) broadcasts_S1x100x1_S32x100x784 (ix3 p l f)
      = BitVec.ofNat 32 l.val := by
    refine (broadcastTo_apply _ _ (ix3 p l f) (ix3 (0 : Fin 1) l (0 : Fin 1)) (fun a => match a with
      | ⟨0, _⟩ => by show 0 = if (1 : Nat) = 1 then 0 else p.val; rw [if_pos rfl]
      | ⟨1, _⟩ => by show l.val = if (100 : Nat) = 1 then 0 else l.val; rw [if_neg (by decide)]
      | ⟨2, _⟩ => by show 0 = if (1 : Nat) = 1 then 0 else f.val; rw [if_pos rfl])).trans ?_
    exact iota_single_apply .tc S1x100x1 32 1 iota_S1x100x1_d1_w32 (ix3 (0 : Fin 1) l (0 : Fin 1))
  rw [e1, e2]
  exact onehot_eq _ _

/-- The product regrouped as [32, 100, 1000] reads, at `(p, l, q)`, row `p·100 + l` of the [3200, 1000] product. -/
theorem regroup_apply (A : FVec Ideal S3200x1000 .f32) (p : Fin 32) (l : Fin 100) (q : Fin 1000) (r : Fin 3200)
    (hr : r.val = p.val * 100 + l.val) :
    shapeCast S32x100x1000 A shapeCasts_S3200x1000_S32x100x1000 (ix3 p l q) = A (ix2 r q) :=
  shapeCast_apply _ _ (ix3 p l q) (ix2 r q) (by
    rw [Shape.rowMajor_val_two, Shape.rowMajor_val_three]
    show r.val * 1000 + q.val = (p.val * 100 + l.val) * 1000 + q.val
    rw [hr])

/-- The level rows broadcast over the block's rows read, at `(p, l, q)`, the level row `l` at `q`. -/
theorem levels_apply (x2 : FVec Ideal S100x1000 .bf16) (p : Fin 32) (l : Fin 100) (q : Fin 1000) :
    (broadcastTo S32x100x1000
      (shapeCast S1x100x1000 (extf (F := Ideal) .f32 (shapeCast S100x1000 x2 shapeCasts_S100x1000_S100x1000) bitsLt_bf16_f32)
        shapeCasts_S100x1000_S1x100x1000) broadcasts_S1x100x1000_S32x100x1000 (ix3 p l q) : EReal) = (x2 (ix2 l q) : EReal) := by
  refine (broadcastTo_apply _ _ (ix3 p l q) (ix3 (0 : Fin 1) l q) (fun a => match a with
    | ⟨0, _⟩ => by show 0 = if (1 : Nat) = 1 then 0 else p.val; rw [if_pos rfl]
    | ⟨1, _⟩ => by show l.val = if (100 : Nat) = 1 then 0 else l.val; rw [if_neg (by decide)]
    | ⟨2, _⟩ => by show q.val = if (1000 : Nat) = 1 then 0 else q.val; rw [if_neg (by decide)])).trans ?_
  refine (shapeCast_apply _ _ (ix3 (0 : Fin 1) l q) (ix2 l q) (by
    rw [Shape.rowMajor_val_two, Shape.rowMajor_val_three]
    show l.val * 1000 + q.val = (0 * 100 + l.val) * 1000 + q.val
    omega)).trans ?_
  show (shapeCast S100x1000 x2 shapeCasts_S100x1000_S100x1000 (ix2 l q) : EReal) = (x2 (ix2 l q) : EReal)
  rw [shapeCast_self]

/-- The [3200, 784] × [784, 1000] product into a zero accumulator reads, at `(r, q)`, the sum over the 784 features of
    row `r` of the left operand times column `q` of the right one. -/
theorem product_apply (A : FVec Ideal S3200x784 .bf16) (B : FVec Ideal S784x1000 .bf16) (r : Fin 3200) (q : Fin 1000) :
    matmul dot_S3200x784_S784x1000_S3200x1000_1_0_0_1_n_n none A B (constant S3200x1000 .f32 0x00000000#32) (ix2 r q)
      = ∑ f : Fin 784, (A (ix2 r f) : EReal) * (B (ix2 f q) : EReal) := by
  simp only [matmul]
  rw [Ideal.matmul_constant_zero_apply]
  rw [← Equiv.sum_comp (contrEquiv1 dot_S3200x784_S784x1000_S3200x1000_1_0_0_1_n_n 784 rfl rfl).symm]
  refine Finset.sum_congr rfl fun f _ => ?_
  have hk := contrEquiv1_symm_val dot_S3200x784_S784x1000_S3200x1000_1_0_0_1_n_n 784 rfl rfl f
  have eL : dot_S3200x784_S784x1000_S3200x1000_1_0_0_1_n_n.lhsIdx (ix2 r q)
      ((contrEquiv1 dot_S3200x784_S784x1000_S3200x1000_1_0_0_1_n_n 784 rfl rfl).symm f) = ix2 r f := by
    funext a; apply Fin.ext
    match a with
    | ⟨0, _⟩ => rfl
    | ⟨1, _⟩ => exact hk
  have eR : dot_S3200x784_S784x1000_S3200x1000_1_0_0_1_n_n.rhsIdx (ix2 r q)
      ((contrEquiv1 dot_S3200x784_S784x1000_S3200x1000_1_0_0_1_n_n 784 rfl rfl).symm f) = ix2 f q := by
    funext a; apply Fin.ext
    match a with
    | ⟨0, _⟩ => exact hk
    | ⟨1, _⟩ => rfl
  rw [eL, eR]

/-- The sum over the level axis of a [32, 100, 1000] value reads, at `(p, q)`, the sum over `l` of the value at `(p, l, q)`. -/
theorem levelSum_apply (src : FVec Ideal S32x100x1000 .f32) (hφ : FKind.Formats .f32)
    (hacc : (0x00000000#32 : BitVec FTy.f32.bits) = FKind.add.neutral .f32 hφ) (p : Fin 32) (q : Fin 1000) :
    multiReduction .add [1] S32x1000 src 0x00000000#32 reduces_S32x100x1000_S32x1000 hφ hacc (ix2 p q)
      = ∑ l : Fin 100, (src (ix3 p l q) : EReal) := by
  refine (Ideal.multiReduction_add_single src 0x00000000#32 reduces_S32x100x1000_S32x1000 hφ hacc (ix2 p q)).trans ?_
  refine Finset.sum_congr rfl fun l _ => ?_
  refine congrArg src (funext fun a => Fin.ext ?_)
  match a with
  | ⟨0, _⟩ => rfl
  | ⟨1, _⟩ => rfl
  | ⟨2, _⟩ => rfl

/-- The level words of a block of features. -/
def levels (x0 : FVec Ideal S32x784 .f32) : IVec S32x784 32 :=
  fptosi 32 (minimumf (broadcast S32x784 (Scalar.sitofp (F := Ideal) .f32 (99#32 : BitVec 32)))
    (maximumf (broadcast S32x784 (Scalar.sitofp (F := Ideal) .f32 (0#32 : BitVec 32)))
      (roundeven (mulf x0 (broadcast S32x784 (FloatOps.ofBits (F := Ideal) .f32 0x42C60000#32))))))

theorem levels_eq (x0 : FVec Ideal S32x784 .f32) (i : S32x784.Idx) : levels x0 i = lev (x0 i) := rfl

/-- THE STORED VALUE AT `(p, q)`: the sign test of the bundled sum `∑ f, K f q · V (level (x p f)) q`, for finite keys and
    level rows in column `q`. -/
theorem pay_apply (x0 : Vec Ideal S32x784 .f32) (x1 : Vec Ideal S784x1000 .bf16) (x2 : Vec Ideal S100x1000 .bf16)
    (p : Fin 32) (q : Fin 1000)
    (hK : ∀ f : Fin 784, ∃ r : ℝ, (x1 (ix2 f q) : EReal) = (r : EReal))
    (hV : ∀ l : Fin 100, ∃ r : ℝ, (x2 (ix2 l q) : EReal) = (r : EReal)) :
    k0_pay1 x0 x1 x2 (ix2 p q)
      = Scalar.select (Ideal.cmp .ogt (∑ f : Fin 784, (x1 (ix2 f q) : EReal) * (x2 (ix2 (levN (x0 (ix2 p f))) q) : EReal))
          (Ideal.ofBits .f32 0x00000000#32)) (Ideal.ofBits .f32 0x3F800000#32) (Ideal.ofBits .f32 0xBF800000#32) := by
  unfold k0_pay1
  dsimp only
  refine congrArg (fun s : EReal => Scalar.select (Ideal.cmp .ogt s (Ideal.ofBits .f32 0x00000000#32))
    (Ideal.ofBits .f32 0x3F800000#32) (Ideal.ofBits .f32 0xBF800000#32)) ?_
  refine (levelSum_apply _ _ _ p q).trans ?_
  rw [← bundle_ereal (fun f : Fin 784 => levN (x0 (ix2 p f))) (fun f => (x1 (ix2 f q) : EReal)) (fun l => (x2 (ix2 l q) : EReal)) hK hV]
  refine Finset.sum_congr rfl fun l _ => ?_
  have hr : p.val * 100 + l.val < 3200 := by have := p.isLt; have := l.isLt; omega
  show (shapeCast S32x100x1000 _ shapeCasts_S3200x1000_S32x100x1000 (ix3 p l q) : EReal) * (broadcastTo S32x100x1000 _ broadcasts_S1x100x1000_S32x100x1000 (ix3 p l q) : EReal) = _
  rw [regroup_apply _ p l q ⟨p.val * 100 + l.val, hr⟩ rfl, levels_apply x2 p l q, product_apply]
  congr 1
  refine Finset.sum_congr rfl fun f _ => ?_
  refine (congrArg₂ (fun a b : EReal => a * b) (onehot_apply (levels x0) p l f ⟨p.val * 100 + l.val, hr⟩ rfl)
    (congrFun (shapeCast_self x1 shapeCasts_S784x1000_S784x1000) (ix2 f q))).trans ?_
  refine congrArg (fun a : EReal => a * (x1 (ix2 f q) : EReal)) ?_
  exact if_congr (lev_eq_ofNat_iff (x0 (ix2 p f)) l) rfl rfl

end Cert.KernelIdeal.Pay

end
-- ==== Proof.Spec.lean ====
/-
  What both programs compute, as ONE function of the three argument arrays, index by index: at `(b, d)`,
  `1` when the bundled sum  ∑ f, keys f d · levelRows (level (x b f)) d  is positive, else `-1`.
  The float literals stay as their words: the same word is on both sides and is never evaluated.
-/
import proofs.«135671_j8383776162326_1_alg».proof.Proof.Level
import Idealize.ShloMosaic.Lib.ValueIdx

noncomputable section

namespace Cert.Hv

open Idealize.ShloMosaic Idealize.ShloMosaic.ValueIdx
open scoped BigOperators

/-- The hard-quantized bundle at row `b`, dimension `d`. -/
def encAt (x : (⟨2, ![256, 784]⟩ : Shape).Idx → EReal) (K : (⟨2, ![784, 1000]⟩ : Shape).Idx → EReal)
    (V : (⟨2, ![100, 1000]⟩ : Shape).Idx → EReal) (b : Fin 256) (d : Fin 1000) : EReal :=
  Scalar.select (Ideal.cmp .ogt (∑ f : Fin 784, K (ix2 f d) * V (ix2 (levN (x (ix2 b f))) d))
    (Ideal.ofBits .f32 0x00000000#32)) (Ideal.ofBits .f32 0x3F800000#32) (Ideal.ofBits .f32 0xBF800000#32)

/-- The whole result array. -/
def enc (x : (⟨2, ![256, 784]⟩ : Shape).Idx → EReal) (K : (⟨2, ![784, 1000]⟩ : Shape).Idx → EReal)
    (V : (⟨2, ![100, 1000]⟩ : Shape).Idx → EReal) : (⟨2, ![256, 1000]⟩ : Shape).Idx → EReal :=
  fun i => encAt x K V ⟨(i 0).val, idx2_lt0 i⟩ ⟨(i 1).val, idx2_lt1 i⟩

theorem enc_apply (x : (⟨2, ![256, 784]⟩ : Shape).Idx → EReal) (K : (⟨2, ![784, 1000]⟩ : Shape).Idx → EReal)
    (V : (⟨2, ![100, 1000]⟩ : Shape).Idx → EReal) (b : Fin 256) (d : Fin 1000) :
    enc x K V (ix2 b d) = encAt x K V b d := rfl

end Cert.Hv

end
-- ==== Proof.KernelValue.lean ====
/-
  The kernel's result array after the run. Grid point `t` works on rows 32·t … 32·t + 31: it reads that block of the
  features, the whole key array and all the level rows (the host's format change of the keys and level rows is the
  identity at the ideal values), and writes back the block of the specification at those rows. The eight blocks tile the
  [256, 1000] result, so the array ends holding the specification everywhere.
-/
import proofs.«135671_j8383776162326_1_alg».proof.Proof.Gen.KernelIdeal.Value
import proofs.«135671_j8383776162326_1_alg».proof.Proof.Payload
import proofs.«135671_j8383776162326_1_alg».proof.Proof.Spec
import Idealize.ShloMosaic.Lib.StableHlo.Run
import Idealize.ShloMosaic.Lib.Pipeline.Value

set_option maxRecDepth 16384

noncomputable section

namespace Cert.KernelIdeal.Arr

open Cert.KernelIdeal Cert.KernelIdeal.Gen Cert.KernelIdeal.Value Cert.KernelIdeal.Pay
open Idealize.ShloMosaic Idealize.ShloMosaic.TcCoe Idealize.SL.Sem Idealize.ShloMosaic.ValueIdx Cert.Hv
open Idealize.ShloMosaic.Pipeline (Dat)
open scoped BigOperators

/-- The body's stored value at `(p, q)` of the block of rows `32·tt …`, when its loaded blocks are those rows of the
    features, the whole keys and the whole level rows: the specification at row `32·tt + p`, dimension `q`. -/
theorem block_apply (X0 : Vec Ideal S32x784 .f32) (X1 : Vec Ideal S784x1000 .bf16) (X2 : Vec Ideal S100x1000 .bf16)
    (A0 : (⟨2, ![256, 784]⟩ : Shape).Idx → EReal) (A1 : (⟨2, ![784, 1000]⟩ : Shape).Idx → EReal)
    (A2 : (⟨2, ![100, 1000]⟩ : Shape).Idx → EReal) (tt : Nat) (htt : tt < 8)
    (h0 : ∀ (p : Fin 32) (f : Fin 784), (X0 (ix2 p f) : EReal) = A0 (ix2 ⟨tt * 32 + p.val, by omega⟩ f))
    (h1 : ∀ (f : Fin 784) (q : Fin 1000), (X1 (ix2 f q) : EReal) = A1 (ix2 f q))
    (h2 : ∀ (l : Fin 100) (q : Fin 1000), (X2 (ix2 l q) : EReal) = A2 (ix2 l q))
    (hK : ∀ i, ∃ r : ℝ, A1 i = (r : EReal)) (hV : ∀ i, ∃ r : ℝ, A2 i = (r : EReal)) (p : Fin 32) (q : Fin 1000) :
    k0_pay1 X0 X1 X2 (ix2 p q) = encAt A0 A1 A2 ⟨tt * 32 + p.val, by omega⟩ q := by
  rw [pay_apply X0 X1 X2 p q (fun f => by rw [h1]; exact hK _) (fun l => by rw [h2]; exact hV _)]
  unfold encAt
  simp only [h0, h1, h2]

variable (m : (ℓ : Loc nD τ sig) → Buf (Elt Ideal) ℓ) (ρ : Dev nD → PrngReg)

theorem off_zero : (![0, 0] : Fin 2 → Nat) = fun _ => 0 := funext fun a => by fin_cases a <;> rfl

/-- The keys as the region finds them: the argument (the host's change of format is the identity). -/
theorem keys_entry (c : Dev nD) :
    (V m c main_v0 : S784x1000.Idx → EReal) = (m ((c : Thread nD τ).loc main_arg1) : S784x1000.Idx → EReal) := by
  dsimp only [Gen.V, Gen.hostOps0]; after_results; rfl

/-- The level rows as the region finds them: the argument. -/
theorem rows_entry (c : Dev nD) :
    (V m c main_v1 : S100x1000.Idx → EReal) = (m ((c : Thread nD τ).loc main_arg2) : S100x1000.Idx → EReal) := by
  dsimp only [Gen.V, Gen.hostOps0]; after_results; rfl

/-- The printed index maps over the grid: the result and the features move one block of rows per point; the keys and
    the level rows stay at block (0, 0). -/
theorem index_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- WHAT POINT `t` WRITES BACK is block `t` of the specification of the argument arrays. -/
theorem flushed_eq (c : Dev nD) (t : Fin cfg0.N)
    (hK : ∀ i, ∃ r : ℝ, (m ((c : Thread nD τ).loc main_arg1) : S784x1000.Idx → EReal) i = (r : EReal))
    (hV : ∀ i, ∃ r : ℝ, (m ((c : Thread nD τ).loc main_arg2) : S100x1000.Idx → EReal) i = (r : EReal)) :
    (dats m 0 c).flushed 3 t = ((cfg0.win 3).blk t).view.read (Elt Ideal)
      (enc (m ((c : Thread nD τ).loc main_arg0)) (m ((c : Thread nD τ).loc main_arg1)) (m ((c : Thread nD τ).loc main_arg2))) := by
  rw [Value.flushed3]
  unfold out0_3
  rw [View.canon_unit_zero off_zero]
  simp only [View.ld_unit_zero (S := S32x784) off_zero, View.ld_unit_zero (S := S784x1000) off_zero,
    View.ld_unit_zero (S := S100x1000) off_zero]
  obtain ⟨e30, e31, e00, e01, e10, e11, e20, e21⟩ := index_facts t
  have ht : t.val < 8 := by have h : t.val < grid0.N := t.isLt; have hN := N_0; omega
  have h0 : ∀ (p : Fin 32) (f : Fin 784), (iblk m c 0 t (ix2 p f) : EReal)
      = (m ((c : Thread nD τ).loc main_arg0) : S256x784.Idx → EReal) (ix2 ⟨t.val * 32 + p.val, by omega⟩ f) := by
    intro p f
    show V m c main_arg0 (((cfg0.win 0).blk t).view.emb (ix2 p f)) = _
    rw [V_main_arg0]
    refine congrArg _ (funext fun a => Fin.ext ?_)
    match a with
    | ⟨0, _⟩ => show win0_0.index t (0 : Fin 2) * 32 + 1 * p.val = t.val * 32 + p.val; omega
    | ⟨1, _⟩ => show win0_0.index t (1 : Fin 2) * 784 + 1 * f.val = f.val; omega
  have h1 : ∀ (f : Fin 784) (q : Fin 1000), (iblk m c 1 t (ix2 f q) : EReal)
      = (m ((c : Thread nD τ).loc main_arg1) : S784x1000.Idx → EReal) (ix2 f q) := by
    intro f q
    show (V m c main_v0 : S784x1000.Idx → EReal) (((cfg0.win 1).blk t).view.emb (ix2 f q)) = _
    rw [keys_entry]
    refine congrArg _ (funext fun a => Fin.ext ?_)
    match a with
    | ⟨0, _⟩ => show win0_1.index t (0 : Fin 2) * 784 + 1 * f.val = f.val; omega
    | ⟨1, _⟩ => show win0_1.index t (1 : Fin 2) * 1000 + 1 * q.val = q.val; omega
  have h2 : ∀ (l : Fin 100) (q : Fin 1000), (iblk m c 2 t (ix2 l q) : EReal)
      = (m ((c : Thread nD τ).loc main_arg2) : S100x1000.Idx → EReal) (ix2 l q) := by
    intro l q
    show (V m c main_v1 : S100x1000.Idx → EReal) (((cfg0.win 2).blk t).view.emb (ix2 l q)) = _
    rw [rows_entry]
    refine congrArg _ (funext fun a => Fin.ext ?_)
    match a with
    | ⟨0, _⟩ => show win0_2.index t (0 : Fin 2) * 100 + 1 * l.val = l.val; omega
    | ⟨1, _⟩ => show win0_2.index t (1 : Fin 2) * 1000 + 1 * q.val = q.val; omega
  have key : ∀ j : S32x1000.Idx, k0_pay1 (iblk m c 0 t) (iblk m c 1 t) (iblk m c 2 t) j
      = enc (m ((c : Thread nD τ).loc main_arg0)) (m ((c : Thread nD τ).loc main_arg1)) (m ((c : Thread nD τ).loc main_arg2))
          (((cfg0.win 3).blk t).view.emb j) := by
    intro j
    obtain ⟨p, q, rfl⟩ : ∃ (p : Fin 32) (q : Fin 1000), j = ix2 p q := ⟨j 0, j 1, eq_ix2 j⟩
    refine (block_apply (iblk m c 0 t) (iblk m c 1 t) (iblk m c 2 t) (m ((c : Thread nD τ).loc main_arg0))
      (m ((c : Thread nD τ).loc main_arg1)) (m ((c : Thread nD τ).loc main_arg2)) t.val ht h0 h1 h2 hK hV p q).trans ?_
    rw [← enc_apply]
    refine congrArg (enc (m ((c : Thread nD τ).loc main_arg0)) (m ((c : Thread nD τ).loc main_arg1)) (m ((c : Thread nD τ).loc main_arg2)))
      (funext fun a => Fin.ext ?_)
    match a with
    | ⟨0, _⟩ => show t.val * 32 + p.val = win0_3.index t (0 : Fin 2) * 32 + 1 * p.val; omega
    | ⟨1, _⟩ => show q.val = win0_3.index t (1 : Fin 2) * 1000 + 1 * q.val; omega
  funext j
  exact key j

/-- An index of the result array is in point `t`'s block iff each coordinate is in the block's range on its axis. -/
theorem mem_block (t : Fin cfg0.N) (i : S256x1000.Idx) :
    i ∈ ((cfg0.win 3).blk t).view.set ↔ ∀ a : Fin 2, win0_3.index t a * S32x1000.size a ≤ (i a).val ∧ (i a).val < win0_3.index t a * S32x1000.size a + S32x1000.size a := by
  show i ∈ ((View.whole main_v2).slice (win0_3.rect t)).set ↔ _
  rw [View.set_slice_whole, Rect.mem_set_unit]
  exact Iff.rfl

/-- Every index of the result is in some point's block: row `r` is in the block of point `r / 32`. -/
theorem cover (i : S256x1000.Idx) : ∃ t : Fin cfg0.N, (cfg0.win 3).flush t = true ∧ i ∈ ((cfg0.win 3).blk t).view.set := by
  have hi0 : (i 0).val < 256 := (i 0).isLt
  have hi1 : (i 1).val < 1000 := (i 1).isLt
  have hN := N_0
  refine ⟨⟨(i 0).val / 32, by show _ < grid0.N; omega⟩, flush0_3 _, ?_⟩
  rw [mem_block]
  obtain ⟨e30, e31, -⟩ := index_facts ⟨(i 0).val / 32, by show _ < grid0.N; omega⟩
  intro a
  match a with
  | ⟨0, _⟩ =>
    show win0_3.index _ (0 : Fin 2) * 32 ≤ (i 0).val ∧ (i 0).val < win0_3.index _ (0 : Fin 2) * 32 + 32
    rw [e30]; show (i 0).val / 32 * 32 ≤ (i 0).val ∧ (i 0).val < (i 0).val / 32 * 32 + 32; omega
  | ⟨1, _⟩ =>
    show win0_3.index _ (1 : Fin 2) * 1000 ≤ (i 1).val ∧ (i 1).val < win0_3.index _ (1 : Fin 2) * 1000 + 1000
    rw [e31]; omega

/-- THE RESULT ARRAY after the run is the specification of the argument arrays. -/
theorem final (c : Dev nD)
    (hK : ∀ i, ∃ r : ℝ, (m ((c : Thread nD τ).loc main_arg1) : S784x1000.Idx → EReal) i = (r : EReal))
    (hV : ∀ i, ∃ r : ℝ, (m ((c : Thread nD τ).loc main_arg2) : S100x1000.Idx → EReal) i = (r : EReal)) :
    (dats m 0 c).arrAt 3 cfg0.N
      = enc (m ((c : Thread nD τ).loc main_arg0)) (m ((c : Thread nD τ).loc main_arg1)) (m ((c : Thread nD τ).loc main_arg2)) :=
  (dats m 0 c).arrAt_eq_of_cover 3 _ (fun t _ => flushed_eq m c t hK hV) cover

/-- The kernel's run with its result named: the specification of the arguments, which end unchanged. -/
theorem run
    (hK : ∀ (c : Dev nD) i, ∃ r : ℝ, (m ((c : Thread nD τ).loc main_arg1) : S784x1000.Idx → EReal) i = (r : EReal))
    (hV : ∀ (c : Dev nD) i, ∃ r : ℝ, (m ((c : Thread nD τ).loc main_arg2) : S100x1000.Idx → EReal) i = (r : EReal)) :
    θ_run defs (onTc (τ := τ) (main (F := Ideal))) ⟨m, fun _ => 0, ρ⟩ fun r => ∀ c : Dev nD,
      r.2.mem ((c : Thread nD τ).loc main_v2)
        = enc (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hK c) (hV c)), (h c).2⟩) (Value.run_blocks m ρ)

end Cert.KernelIdeal.Arr

end
-- ==== Proof.LibGatherScatter.lean ====
/-
  The host's gather and accumulating scatter in the shapes array indexing `x[idx]` and the segment sum
  `x.at[idx].add(u)` lower to, READ AT AN INDEX at the ideal instance, for any sizes: one axis of the operand is
  indexed by a column of 32-bit words, the other axis (if any) is carried whole. The gather reads the operand at
  the word's signed value clamped into the axis; the scatter adds to an element every update whose word's signed
  value is exactly that element's coordinate (an update landing outside is dropped). Also the negative-index
  wrap (a negative word counts from the end) and the column broadcast that feed them, read at an index.
  Each lemma is stated for ANY dimension-number record of the given type whose fields are the listed ones.
-/
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

/-! ## The clamp of a start index -/

/-- The signed value of a 32-bit word clamped into `[0, N - 1]`: a negative word gives `0`, one at or past `N`
    gives `N - 1`. -/
def clampIdx (N : Nat) (hN : 0 < N) (v : BitVec 32) : Fin N := ⟨min v.toInt.toNat (N - 1), by omega⟩

/-- A word whose signed value is already in `[0, N)` is clamped to that value. -/
theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

/-! ## The gather along the first axis, read at an index -/

/-- The gather of a rank-1 operand `[N]` at a column `[E, 1]` of start indices (the operand's one axis collapsed
    and start-indexed, no offset or batching axes, the index vector on axis 1): result element `e` is the operand
    at start index `e`'s signed value clamped into `[0, N - 1]`. -/
theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

/-- The gather of whole rows of a rank-2 operand `[N, C]` at a column `[E, 1]` of start indices (axis 0 collapsed
    and start-indexed, axis 1 the one offset axis, the index vector on axis 1): result element `(e, f)` is the
    operand at row "start index `e`'s signed value clamped into `[0, N - 1]`", column `f`. -/
theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the row: the clamped start, no batching or offset coordinate
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: start 0 (the axis is not start-indexed), the offset coordinate the result's
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-! ## The accumulating scatter along the first axis, read at an index -/

/-- An update lands at `i` exactly when, on every operand axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

/-! ### Rank 1: `[N]` at a column `[E, 1]` of scatter indices, updates `[E]` -/

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

/-- Update `j`'s start on the operand's axis is the signed value of scatter index `j`. -/
theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The operand's axis is an inserted one: no window coordinate on it. -/
theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- Update `j` lands at `i` exactly when scatter index `j`'s signed value is `i`'s coordinate. -/
theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

/-- THE SCATTER-ADD READ AT `i`: the operand's element plus the sum of the updates whose scatter index, read
    signed, is exactly `i` (an index below `0` or at or past `N` meets no `i`: that update is dropped). -/
theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

/-! ### Rank 2: whole rows of `[N, C]` at a column `[E, 1]` of scatter indices, updates `[E, C]` -/

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

/-- Update `j`'s start on the row axis is the signed value of scatter index `j 0`. -/
theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The column axis is not scatter-indexed: its start is `0`. -/
theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

/-- The row axis is an inserted one: no window coordinate on it. -/
theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The column axis carries the update's window coordinate: its column. -/
theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `i` exactly when scatter index `j 0`'s signed value is `i`'s row and `j`'s column is `i`'s. -/
theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

/-- THE SCATTER-ADD READ AT `(i, f)`: the operand's element plus the sum, over the updates' rows whose scatter
    index, read signed, is exactly `i`, of that row's column `f` (an index below `0` or at or past `N` meets no
    `i`: that row is dropped). -/
theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1
  -- on the updates that land at (i, f) the column is f: such an update is (its row, f)
  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

/-! ## The negative-index wrap and the column of indices, read at an index -/

/-- The negative-index wrap on one word: a negative index counts from the end, `n` the axis's extent. -/
def wrapW (n : BitVec 32) (v : BitVec 32) : BitVec 32 := if v.toInt < 0 then v + n else v

/-- A non-negative index is left alone. -/
theorem wrapW_of_nonneg {n v : BitVec 32} (h : 0 ≤ v.toInt) : wrapW n v = v := by
  unfold wrapW
  rw [if_neg (not_lt.mpr h)]

/-- The wrap as the select of "`v < 0`, signed" between `v + n` and `v`, the zero and `n` scalars broadcast to
    `v`'s shape, read at an index: the wrap of the word there. -/
theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

/-- A vector `[E]` laid out as the column `[E, 1]` reads, at `(e, 0)`, the vector at `e`. -/
theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.LibGatherRows3.lean ====
/-
  The host's gather of whole rows of a rank-2 operand `[N, C]` at a rank-2 batch of start indices laid out `[R, E, 1]`
  (what `table[idx]` lowers to for an integer array `idx : [R, E]`): result element `(r, e, c)` is the operand at row
  "start index `(r, e)`'s signed value clamped into `[0, N - 1]`", column `c`. Stated for ANY dimension-number record of
  that type whose fields are the listed ones, for any sizes and any element type.
-/
import proofs.«135671_j8383776162326_1_alg».proof.Proof.LibGatherScatter

set_option maxRecDepth 16384

noncomputable section

namespace Cert.LibGatherRows3

open Idealize.ShloMosaic Idealize.ShloMosaic.ValueIdx Cert.LibGatherScatter

/-- The gather of whole rows of `[N, C]` at start indices `[R, E, 1]` (axis 0 collapsed and start-indexed, axis 1 the one
    offset axis, landing on result axis 2; the index vector on axis 2), read at `(r, e, c)`. -/
theorem gather3_apply {α : Type} {N R E C : Nat} (hN : 0 < N)
    (d : GatherDims ⟨2, ![N, C]⟩ ⟨3, ![R, E, 1]⟩ ⟨3, ![R, E, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![R, E, 1]⟩ 32) (r : Fin R) (e : Fin E) (c : Fin C) :
    Host.gather d x idx (ix3 r e c) = x (ix2 (clampIdx N hN (idx (ix3 r e 0))) c) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the row: the clamped start, no batching or offset coordinate
    show GatherDims.start _ _ idx 0 + GatherDims.batchCoord _ _ 0 + GatherDims.offCoord _ _ 0
      = min (idx (ix3 r e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
    | ⟨2, _⟩ => rfl
  | ⟨1, _⟩ =>
    -- the column: start 0 (the axis is not start-indexed), the offset coordinate the result's last one
    show GatherDims.start _ _ idx 1 + GatherDims.batchCoord _ _ 1 + GatherDims.offCoord _ _ 1 = c.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

end Cert.LibGatherRows3

end
-- ==== Proof.RefValue.lean ====
/-
  The reference's result read at an index, at the ideal values: the level word of each feature (never negative, so the
  negative-index wrap leaves it alone, and below 100, so the gather's clamp does too) picks a level row; the keys times
  the picked rows are summed over the features from a zero initial value; the sign test gives 1 or -1.
-/
import proofs.«135671_j8383776162326_1_alg».proof.Proof.Gen.ReferenceIdeal.Read
import proofs.«135671_j8383776162326_1_alg».proof.Proof.Spec
import proofs.«135671_j8383776162326_1_alg».proof.Proof.LibGatherRows3
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.Hv Cert.LibGatherScatter Cert.LibGatherRows3
open scoped BigOperators

/-- The converted, clipped, rounded feature at an index is the level word. -/
theorem word_apply (x0 : FVec Ideal S256x784 .f32) (i : S256x784.Idx) : val_main_v4 (F := Ideal) x0 i = lev (x0 i) := by
  rw [val_main_v4_apply, val_main_v3_apply, val_main_call1_v4_apply, val_main_call1_v3_apply, val_main_c_0_apply,
    val_main_call1_v2_apply, val_main_call1_v1_apply, val_main_call1_v0_apply, val_main_c_apply, val_main_v2_apply,
    val_main_v1_apply, val_main_v0_apply, val_main_cst_apply]
  rfl

/-- The negative-index wrap leaves the level word alone: it is never negative. -/
theorem wrapped_apply (x0 : FVec Ideal S256x784 .f32) (i : S256x784.Idx) : val_main_v9 (F := Ideal) x0 i = lev (x0 i) := by
  have h : val_main_v9 (F := Ideal) x0 i = wrapW 100#32 (val_main_v4 (F := Ideal) x0 i) :=
    wrap_apply (s := S256x784) bcast_S_S256x784 bcast_S_S256x784 100#32 (val_main_v4 (F := Ideal) x0) i
  rw [h, word_apply, wrapW_of_nonneg (lev_range _).1]

/-- The gathered level row at `(b, f, d)`: level row `level (x b f)` at `d`. -/
theorem picked_apply (x0 : FVec Ideal S256x784 .f32) (x2 : FVec Ideal S100x1000 .f32) (b : Fin 256) (f : Fin 784) (d : Fin 1000) :
    val_main_v11 (F := Ideal) x0 x2 (ix3 b f d) = x2 (ix2 (levN (x0 (ix2 b f))) d) := by
  unfold val_main_v11
  rw [gather3_apply (by decide : 0 < 100) gather_S100x1000_S256x784x1_S256x784x1000_2_0_n_n_0_2_11000 rfl rfl rfl rfl rfl]
  have e : val_main_v10 (F := Ideal) x0 (ix3 b f 0) = lev (x0 (ix2 b f)) := by
    rw [val_main_v10_apply]
    have : idx_main_v10 (ix3 b f (0 : Fin 1)) = ix2 b f := funext fun a => Fin.ext (by match a with | ⟨0, _⟩ => rfl | ⟨1, _⟩ => rfl)
    rw [this, wrapped_apply]
  rw [e]
  congr 2
  apply Fin.ext
  rw [clampIdx_of_inRange (by decide : 0 < 100) (lev_range _).1 (by exact_mod_cast (lev_range _).2)]
  rfl

/-- The keys broadcast over the rows read, at `(b, f, d)`, key `(f, d)`. -/
theorem keys_apply (x1 : FVec Ideal S784x1000 .f32) (b : Fin 256) (f : Fin 784) (d : Fin 1000) :
    val_main_v13 (F := Ideal) x1 (ix3 b f d) = x1 (ix2 f d) := by
  rw [val_main_v13_apply, val_main_v12_apply]
  exact congrArg x1 (funext fun a => Fin.ext (by match a with | ⟨0, _⟩ => rfl | ⟨1, _⟩ => rfl))

/-- THE REFERENCE'S RESULT is the specification, index by index. -/
theorem result_eq (x0 : FVec Ideal S256x784 .f32) (x1 : FVec Ideal S784x1000 .f32) (x2 : FVec Ideal S100x1000 .f32) :
    val_main_v19 (F := Ideal) x0 x1 x2 = enc x0 x1 x2 := by
  funext i
  obtain ⟨b, d, rfl⟩ : ∃ (b : Fin 256) (d : Fin 1000), i = ix2 b d := ⟨i 0, i 1, eq_ix2 i⟩
  rw [enc_apply, val_main_v19_apply, val_main_v18_apply, val_main_v17_apply, val_main_v15_apply, val_main_v16_apply,
    val_main_cst_4_apply, val_main_call2_v0_apply, val_main_cst_5_apply, val_main_call2_v1_apply, val_main_cst_6_apply,
    val_main_cst_3_apply]
  unfold encAt
  have hs : (FloatOps.ofBits (F := Ideal) .f32 0x00000000#32 : EReal) + ∑ k : Fin 784, val_main_v14 (F := Ideal) x0 x1 x2 (idx_main_v15 (ix2 b d) k)
      = ∑ f : Fin 784, (x1 (ix2 f d) : EReal) * (x2 (ix2 (levN (x0 (ix2 b f))) d) : EReal) := by
    show Ideal.ofBits .f32 0x00000000#32 + _ = _
    rw [Ideal.ofBits_zero_f32, zero_add]
    refine Finset.sum_congr rfl fun f _ => ?_
    have e : idx_main_v15 (ix2 b d) f = ix3 b f d :=
      funext fun a => Fin.ext (by match a with | ⟨0, _⟩ => rfl | ⟨1, _⟩ => rfl | ⟨2, _⟩ => rfl)
    rw [e, val_main_v14_apply, keys_apply, picked_apply]
    rfl
  rw [hs]
  rfl

end Cert.ReferenceIdeal.RefValue

end
-- ==== Proof.Finite.lean ====
/-
  From the precondition to finiteness. The precondition says, for each of the three inputs, that `|a| < +∞` holds at every
  index (an "all" over the array, the three joined by "and"). On the extended reals `max a (-a) < ⊤` rules out both
  infinities, so every entry of the keys and of the level rows is a real number: what distributing a level row into a
  sum of keys needs.
-/
import proofs.«135671_j8383776162326_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Hv.Finite

open Cert.Pre_finite_inputs Cert.Pre_finite_inputs.Gen Idealize.ShloMosaic

instance : Subsingleton S_.Idx := ⟨fun a b => funext fun d => d.elim0⟩

/-- The +∞ word is the top element. -/
theorem inf_word : Ideal.ofBits .f32 0x7F800000#32 = (⊤ : EReal) := by simp [Ideal.ofBits, Ideal.ieee]

/-- An extended real whose absolute value is below +∞ is a real. -/
theorem real_of_abs_lt (a : EReal)
    (h : FloatOps.cmpf (F := Ideal) (φ := .f32) .olt (FloatOps.hostAbsf (F := Ideal) (φ := .f32) a) (FloatOps.ofBits (F := Ideal) .f32 0x7F800000#32) = 1#1) :
    ∃ r : ℝ, a = (r : EReal) := by
  have h' : Ideal.cmp .olt (max a (-a)) (Ideal.ofBits .f32 0x7F800000#32) = 1#1 := h
  rw [inf_word] at h'
  have hlt : max a (-a) < ⊤ := by
    by_contra hn
    have : Ideal.cmp .olt (max a (-a)) ⊤ = 0#1 := by simp [Ideal.cmp, hn]
    rw [this] at h'
    exact absurd h' (by decide)
  induction a using EReal.rec with
  | bot => exact absurd hlt (by simp)
  | top => exact absurd hlt (by simp)
  | coe r => exact ⟨r, rfl⟩

/-- Under the precondition every key and every level-row entry is a real. -/
theorem finite_of_pre (a0 : FVec Ideal S256x784 .f32) (a1 : FVec Ideal S784x1000 .f32) (a2 : FVec Ideal S100x1000 .f32)
    (h : fn (F := Ideal) a0 a1 a2 = fun _ => 1#1) :
    (∀ i, ∃ r : ℝ, (a1 i : EReal) = (r : EReal)) ∧ (∀ i, ∃ r : ℝ, (a2 i : EReal) = (r : EReal)) := by
  have h0 := congrFun h ValueIdx.ix0
  dsimp only [fn] at h0
  obtain ⟨h38, h12⟩ := IntOp.andi_eq_one.1 h0
  obtain ⟨h3, h7⟩ := IntOp.andi_eq_one.1 h38
  exact ⟨fun i => real_of_abs_lt _ (Host.reduce_andi_all _ _ _ _ _ h7 i),
    fun i => real_of_abs_lt _ (Host.reduce_andi_all _ _ _ _ _ h12 i)⟩

end Cert.Hv.Finite

end
-- ==== Proof.lean ====
/-
  A hyperdimensional encoder: each of 784 features of a row is mapped to one of 100 levels, `level = clip(round(99·x), 0, 99)`;
  the row's code at dimension `d` is the sign test (1 if positive, else -1) of the bundled sum
  `∑ f, keys f d · levelRows (level (x f)) d`.

  The reference gathers the level row of each feature and sums the products over the features. The kernel instead builds,
  per block of 32 rows, the 0/1 matrix "feature `f` of row `p` has level `l`" (3200 × 784), multiplies it with the keys on
  the matrix unit, multiplies the result with the level rows and sums over the 100 levels. At the ideal values:
    · both sides compute the level word with the same rounding, clamp and conversion, and the clamp makes it one of
      0, …, 99 whatever the input (so the reference's negative-index wrap and the gather's clamp change nothing);
    · the format changes (keys and level rows to bf16 and back) are the identity;
    · ∑ l, (∑ f, [level f = l] · K f) · V l = ∑ f, K f · V (level f) over the reals — distribute, exchange the sums, and only
      the feature's own level survives; on the extended reals this needs the keys and level rows finite, which is what
      the precondition gives.
  The kernel's eight blocks of 32 rows tile the [256, 1000] result, so its array ends at the same function of the
  arguments as the reference's. The idealization rewrote nothing, so the kernel's idealized program is its own text.
-/
import proofs.«135671_j8383776162326_1_alg».proof.Defs
import proofs.«135671_j8383776162326_1_alg».proof.Proof.Gen.Kernel
import proofs.«135671_j8383776162326_1_alg».proof.Proof.Gen.Kernel.Skeleton
import proofs.«135671_j8383776162326_1_alg».proof.Proof.Gen.Kernel.Launch
import proofs.«135671_j8383776162326_1_alg».proof.Proof.Gen.Kernel.Points
import proofs.«135671_j8383776162326_1_alg».proof.Proof.Gen.Kernel.Frame
import proofs.«135671_j8383776162326_1_alg».proof.Proof.Gen.KernelIdeal
import proofs.«135671_j8383776162326_1_alg».proof.Proof.Gen.KernelIdeal.Skeleton
import proofs.«135671_j8383776162326_1_alg».proof.Proof.Gen.KernelIdeal.Launch
import proofs.«135671_j8383776162326_1_alg».proof.Proof.Gen.KernelIdeal.Points
import proofs.«135671_j8383776162326_1_alg».proof.Proof.Gen.KernelIdeal.Frame
import proofs.«135671_j8383776162326_1_alg».proof.Proof.Gen.ReferenceIdeal
import proofs.«135671_j8383776162326_1_alg».proof.Proof.Gen.KernelIdeal.Value
import proofs.«135671_j8383776162326_1_alg».proof.Proof.Gen.ReferenceIdeal.Run
import proofs.«135671_j8383776162326_1_alg».proof.Proof.Gen.ReferenceIdeal.Read
import proofs.«135671_j8383776162326_1_alg».proof.Proof.Gen.Pre_finite_inputs
import proofs.«135671_j8383776162326_1_alg».proof.Proof.KernelValue
import proofs.«135671_j8383776162326_1_alg».proof.Proof.RefValue
import proofs.«135671_j8383776162326_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealized program. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification `enc` of the (agreeing) arguments: the kernel block by block under the
    finiteness the precondition gives, the reference by reading its operations at an index. -/
theorem algebraic : Cert.algebraic_KernelIdeal_ReferenceIdeal := by
  intro m ρ m' ρ' hpre hagree
  have hfin := fun c => Cert.Hv.Finite.finite_of_pre _ _ _ (hpre c)
  refine ⟨_, Cert.KernelIdeal.Arr.run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
